-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64 .f32) (main_arg6 : FVec F S64x32 .f32) (main_arg7 : FVec F S32 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x64 .f32) (main_arg1 : FVec F S100000x64 .f32) (main_arg2 : IVec S2x1600000 32) (main_arg3 : FVec F S64x64 .f32) (main_arg4 : FVec F S64x64 .f32) (main_arg5 : FVec F S64 .f32) (main_arg6 : FVec F S64x32 .f32) (main_arg7 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S1x32 : Shape := ⟨2, ![1, 32]⟩
abbrev S100000x32 : Shape := ⟨2, ![100000, 32]⟩
abbrev S5000x64 : Shape := ⟨2, ![5000, 64]⟩
abbrev S5000x1 : Shape := ⟨2, ![5000, 1]⟩
abbrev S5000x32 : Shape := ⟨2, ![5000, 32]⟩

abbrev nBuf : Space → Nat
  | .hbm => 42
  | .vmem => 15
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S1x64, .f32⟩
  | .hbm, ⟨39, _⟩ => ⟨S1x32, .f32⟩
  | .hbm, ⟨40, _⟩ => ⟨S100000x64, .f32⟩
  | .hbm, ⟨41, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S64x32, .f32⟩
  | .local _ .vmem, ⟨10, _⟩ => ⟨S1x32, .f32⟩
  | .local _ .vmem, ⟨11, _⟩ => ⟨S5000x64, .f32⟩
  | .local _ .vmem, ⟨12, _⟩ => ⟨S5000x64, .f32⟩
  | .local _ .vmem, ⟨13, _⟩ => ⟨S5000x32, .f32⟩
  | .local _ .vmem, ⟨14, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25_0 : Ref sig .tc := ⟨.hbm, 40, rfl⟩
abbrev main_v25_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S5000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S32_S1x32_1 : S32.BroadcastsInDim S1x32 (![1] : Fin 1 → Fin S1x32.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x32.size a ≤ S64x32.size a
  hwx0_6 : ∀ i : grid0.Coords, EltTy.bits .f32 = 32 ∨ (Rect.block (s := S64x32) S64x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S100000x64.size a
  hwx0_8 : ∀ i : grid0.Coords, EltTy.bits .f32 = 32 ∨ (Rect.block (s := S100000x64) S5000x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x32.size a ≤ S100000x32.size a
  hwx0_9 : ∀ i : grid0.Coords, EltTy.bits .f32 = 32 ∨ (Rect.block (s := S100000x32) S5000x32.size (cc0_transform_9 i) (hinb0_9 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v24) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v25_0) S5000x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v25_1) S5000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩
abbrev S100000x32 : Shape := ⟨2, ![100000, 32]⟩
abbrev S1x32 : Shape := ⟨2, ![1, 32]⟩

abbrev nBuf : Space → Nat
  | .hbm => 50
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S100000x32, .f32⟩
  | .hbm, ⟨47, _⟩ => ⟨S1x32, .f32⟩
  | .hbm, ⟨48, _⟩ => ⟨S100000x32, .f32⟩
  | .hbm, ⟨49, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Spec.lean ====
/-
  The fused graph layer as plain arithmetic on the extended reals.

  Node p has an aggregated row mean[p, ·] and a feature row u[p, ·]. The layer computes
      hidden[p, q] = max (Σ_k mean[p, k] · W[k, q]  +  Σ_k u[p, k] · B[k, q]  +  b[q]) 0
  and the prediction head
      pred[p, r]   = Σ_k hidden[p, k] · Wp[k, r]  +  bp[r].
  Both are stated over coordinate functions, for any number of rows, so that the same formula is read at a block of
  rows and at the whole array: hidden[p, ·] and pred[p, ·] depend on row p of mean and u only, which is why a block of
  rows can be computed by itself.

  The mean is the aggregated sum divided by the clamped degree d = max (deg, 1). One program multiplies the sum by
  the reciprocal 1 / d, the other divides it by d. On the extended reals x / d is x · d⁻¹ whenever d ≠ 0, and
  d ≥ 1 > 0 is never 0 whatever deg is (an infinite deg included), so the two agree and no finiteness is used.
-/
import Idealize.ShloMosaic.PureOps.Ideal.Laws

noncomputable section

namespace Cert.GraphLayer

open Idealize.ShloMosaic

/-- The pattern of 1.0 denotes the extended real 1. -/
theorem one_f32 : Ideal.ofBits .f32 0x3F800000#32 = 1 := IdealRules.sign_bit.ideal_onePat .f32

/-- hidden[p, q]: the two contractions over the 64 channels, the bias, and the clamp at the value the zero
    pattern denotes. -/
def hiddenAt {n : ℕ} (mean u : Fin n → Fin 64 → EReal) (W B : Fin 64 → Fin 64 → EReal) (b : Fin 64 → EReal)
    (p : Fin n) (q : Fin 64) : EReal :=
  max ((∑ k : Fin 64, mean p k * W k q) + (∑ k : Fin 64, u p k * B k q) + b q) (Ideal.ofBits .f32 0x00000000#32)

/-- pred[p, r]: one contraction over the 64 hidden channels and the bias. -/
def predAt {n : ℕ} (hid : Fin n → Fin 64 → EReal) (Wp : Fin 64 → Fin 32 → EReal) (bp : Fin 32 → EReal)
    (p : Fin n) (r : Fin 32) : EReal :=
  (∑ k : Fin 64, hid p k * Wp k r) + bp r

/-- hidden[p, q] is the same number for two sets of inputs that agree on row p of mean and u and on the weights. -/
theorem hiddenAt_congr {n n' : ℕ} {mean u : Fin n → Fin 64 → EReal} {mean' u' : Fin n' → Fin 64 → EReal}
    {W B W' B' : Fin 64 → Fin 64 → EReal} {b b' : Fin 64 → EReal} {p : Fin n} {p' : Fin n'}
    (hm : ∀ k, mean p k = mean' p' k) (hu : ∀ k, u p k = u' p' k) (hW : ∀ k q, W k q = W' k q)
    (hB : ∀ k q, B k q = B' k q) (hb : ∀ q, b q = b' q) (q : Fin 64) :
    hiddenAt mean u W B b p q = hiddenAt mean' u' W' B' b' p' q := by
  unfold hiddenAt
  simp only [hm, hu, hW, hB, hb]

/-- pred[p, r] likewise, for inputs that agree on row p of hidden, on the head's matrix and on its bias. -/
theorem predAt_congr {n n' : ℕ} {hid : Fin n → Fin 64 → EReal} {hid' : Fin n' → Fin 64 → EReal}
    {Wp Wp' : Fin 64 → Fin 32 → EReal} {bp bp' : Fin 32 → EReal} {p : Fin n} {p' : Fin n'}
    (h : ∀ k, hid p k = hid' p' k) (hW : ∀ k r, Wp k r = Wp' k r) (hb : ∀ r, bp r = bp' r) (r : Fin 32) :
    predAt hid Wp bp p r = predAt hid' Wp' bp' p' r := by
  unfold predAt
  simp only [h, hW, hb]

/-- Multiplying by the reciprocal of a clamped degree is dividing by it: d = max e 1 is at least 1, hence not 0,
    and off zero the quotient x / d is the product x · d⁻¹; with x = 1 the reciprocal is d⁻¹ itself. -/
theorem mul_recip_clamped (a e one : EReal) (h1 : one = 1) :
    a * Ideal.div one (max e one) = Ideal.div a (max e one) := by
  subst h1
  have hne : max e 1 ≠ 0 := ne_of_gt (lt_of_lt_of_le zero_lt_one (le_max_right e 1))
  simp only [Ideal.div, if_neg hne, one_mul]

end Cert.GraphLayer

end
-- ==== Proof.Blocks.lean ====
/-
  The twenty blocks of rows.

  The grid has 20 points; at point t the three row windows (the aggregated sums, the reciprocal column, the node
  features) stage rows 5000·t … 5000·t + 4999 of their arrays, the five small windows (two weight matrices, the bias
  row, the head's matrix and bias row) stage their whole arrays, and the two result windows write the same rows back.
  Stated for ANY array contents, so that nothing here looks inside what the host computed.
-/
import proofs.«136665_j73383811220028_1_alg».proof.Proof.Gen.KernelIdeal.Value
import proofs.«136665_j73383811220028_1_alg».proof.Proof.Spec
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.GraphLayer

theorem hz : (![0, 0] : Fin 2 → Nat) = fun _ => 0 := funext fun a => by fin_cases a <;> rfl

/-- The printed index maps over the grid: the five row windows sit at block (t, 0), the five whole windows at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ t.val < 20 :=
  (by decide +kernel : ∀ t : Fin grid0.N, _)

/-- Every block row of the results is some point's. -/
theorem idx_onto : ∀ q0 : Fin 20, ∃ t : Fin cfg0.N, t.val = q0.val :=
  (by decide +kernel : ∀ q0 : Fin 20, ∃ t : Fin grid0.N, t.val = q0.val)

/-- Row p of point t's blocks is row 5000·t + p of the arrays. -/
def row (t : Fin cfg0.N) (p : Fin 5000) : Fin 100000 :=
  ⟨t.val * 5000 + p.val, by have := (idx_facts t).2.2.2.2.2.2.2.2.2.2.2.2.2.2.2.2.2.2.2.2; have := p.isLt; omega⟩

/-! ## Reading a block of ANY array: which entry of the array an entry of the block is -/

/-- Window 0 (rows of a [100000, 64] array): entry (p, k) of point t's block is entry (5000·t + p, k). -/
theorem read_rows0 (A : S100000x64.Idx → EReal) (t : Fin cfg0.N) (p : Fin 5000) (k : Fin 64) :
    ((cfg0.win 0).blk t).view.read (Elt Ideal) A (ix2 p k) = A (ix2 (row t p) k) := by
  have h : ((cfg0.win 0).blk t).view.emb (ix2 p k) = ix2 (row t p) k := by
    funext a; apply Fin.ext
    obtain ⟨e0, e1, -⟩ := idx_facts t
    match a with
    | ⟨0, _⟩ => show win0_0.index t (0 : Fin 2) * 5000 + 1 * p.val = t.val * 5000 + p.val; omega
    | ⟨1, _⟩ => show win0_0.index t (1 : Fin 2) * 64 + 1 * k.val = k.val; omega
  show A (((cfg0.win 0).blk t).view.emb (ix2 p k)) = A (ix2 (row t p) k)
  rw [h]

/-- Window 1 (rows of a [100000, 1] column). -/
theorem read_rows1 (A : S100000x1.Idx → EReal) (t : Fin cfg0.N) (p : Fin 5000) :
    ((cfg0.win 1).blk t).view.read (Elt Ideal) A (ix2 p (0 : Fin 1)) = A (ix2 (row t p) (0 : Fin 1)) := by
  have h : ((cfg0.win 1).blk t).view.emb (ix2 p (0 : Fin 1)) = ix2 (row t p) (0 : Fin 1) := by
    funext a; apply Fin.ext
    obtain ⟨-, -, e0, e1, -⟩ := idx_facts t
    match a with
    | ⟨0, _⟩ => show win0_1.index t (0 : Fin 2) * 5000 + 1 * p.val = t.val * 5000 + p.val; omega
    | ⟨1, _⟩ => show win0_1.index t (1 : Fin 2) * 1 + 1 * 0 = 0; omega
  show A (((cfg0.win 1).blk t).view.emb (ix2 p (0 : Fin 1))) = A (ix2 (row t p) (0 : Fin 1))
  rw [h]

/-- Window 2 (rows of a [100000, 64] array). -/
theorem read_rows2 (A : S100000x64.Idx → EReal) (t : Fin cfg0.N) (p : Fin 5000) (k : Fin 64) :
    ((cfg0.win 2).blk t).view.read (Elt Ideal) A (ix2 p k) = A (ix2 (row t p) k) := by
  have h : ((cfg0.win 2).blk t).view.emb (ix2 p k) = ix2 (row t p) k := by
    funext a; apply Fin.ext
    obtain ⟨-, -, -, -, e0, e1, -⟩ := idx_facts t
    match a with
    | ⟨0, _⟩ => show win0_2.index t (0 : Fin 2) * 5000 + 1 * p.val = t.val * 5000 + p.val; omega
    | ⟨1, _⟩ => show win0_2.index t (1 : Fin 2) * 64 + 1 * k.val = k.val; omega
  show A (((cfg0.win 2).blk t).view.emb (ix2 p k)) = A (ix2 (row t p) k)
  rw [h]

/-- Windows 3 to 7 stage their whole array at every point. -/
theorem read_whole3 (A : S64x64.Idx → EReal) (t : Fin cfg0.N) (y : S64x64.Idx) :
    ((cfg0.win 3).blk t).view.read (Elt Ideal) A y = A y := by
  have h : ((cfg0.win 3).blk t).view.emb y = y := by
    funext a; apply Fin.ext
    obtain ⟨-, -, -, -, -, -, e0, e1, -⟩ := idx_facts t
    match a with
    | ⟨0, _⟩ => show win0_3.index t (0 : Fin 2) * 64 + 1 * (y 0).val = (y 0).val; omega
    | ⟨1, _⟩ => show win0_3.index t (1 : Fin 2) * 64 + 1 * (y 1).val = (y 1).val; omega
  show A (((cfg0.win 3).blk t).view.emb y) = A y
  rw [h]

theorem read_whole4 (A : S64x64.Idx → EReal) (t : Fin cfg0.N) (y : S64x64.Idx) :
    ((cfg0.win 4).blk t).view.read (Elt Ideal) A y = A y := by
  have h : ((cfg0.win 4).blk t).view.emb y = y := by
    funext a; apply Fin.ext
    obtain ⟨-, -, -, -, -, -, -, -, e0, e1, -⟩ := idx_facts t
    match a with
    | ⟨0, _⟩ => show win0_4.index t (0 : Fin 2) * 64 + 1 * (y 0).val = (y 0).val; omega
    | ⟨1, _⟩ => show win0_4.index t (1 : Fin 2) * 64 + 1 * (y 1).val = (y 1).val; omega
  show A (((cfg0.win 4).blk t).view.emb y) = A y
  rw [h]

theorem read_whole5 (A : S1x64.Idx → EReal) (t : Fin cfg0.N) (y : S1x64.Idx) :
    ((cfg0.win 5).blk t).view.read (Elt Ideal) A y = A y := by
  have h : ((cfg0.win 5).blk t).view.emb y = y := by
    funext a; apply Fin.ext
    obtain ⟨-, -, -, -, -, -, -, -, -, -, e0, e1, -⟩ := idx_facts t
    match a with
    | ⟨0, _⟩ => show win0_5.index t (0 : Fin 2) * 1 + 1 * (y 0).val = (y 0).val; omega
    | ⟨1, _⟩ => show win0_5.index t (1 : Fin 2) * 64 + 1 * (y 1).val = (y 1).val; omega
  show A (((cfg0.win 5).blk t).view.emb y) = A y
  rw [h]

theorem read_whole6 (A : S64x32.Idx → EReal) (t : Fin cfg0.N) (y : S64x32.Idx) :
    ((cfg0.win 6).blk t).view.read (Elt Ideal) A y = A y := by
  have h : ((cfg0.win 6).blk t).view.emb y = y := by
    funext a; apply Fin.ext
    obtain ⟨-, -, -, -, -, -, -, -, -, -, -, -, e0, e1, -⟩ := idx_facts t
    match a with
    | ⟨0, _⟩ => show win0_6.index t (0 : Fin 2) * 64 + 1 * (y 0).val = (y 0).val; omega
    | ⟨1, _⟩ => show win0_6.index t (1 : Fin 2) * 32 + 1 * (y 1).val = (y 1).val; omega
  show A (((cfg0.win 6).blk t).view.emb y) = A y
  rw [h]

theorem read_whole7 (A : S1x32.Idx → EReal) (t : Fin cfg0.N) (y : S1x32.Idx) :
    ((cfg0.win 7).blk t).view.read (Elt Ideal) A y = A y := by
  have h : ((cfg0.win 7).blk t).view.emb y = y := by
    funext a; apply Fin.ext
    obtain ⟨-, -, -, -, -, -, -, -, -, -, -, -, -, -, e0, e1, -⟩ := idx_facts t
    match a with
    | ⟨0, _⟩ => show win0_7.index t (0 : Fin 2) * 1 + 1 * (y 0).val = (y 0).val; omega
    | ⟨1, _⟩ => show win0_7.index t (1 : Fin 2) * 32 + 1 * (y 1).val = (y 1).val; omega
  show A (((cfg0.win 7).blk t).view.emb y) = A y
  rw [h]

/-- Result window 8: entry (p, q) of point t's block sits at (5000·t + p, q) of the array. -/
theorem emb_hidden (t : Fin cfg0.N) (p : Fin 5000) (q : Fin 64) :
    ((cfg0.win 8).blk t).view.emb (ix2 p q) = ix2 (row t p) q := by
  funext a; apply Fin.ext
  obtain ⟨-, -, -, -, -, -, -, -, -, -, -, -, -, -, -, -, e0, e1, -⟩ := idx_facts t
  match a with
  | ⟨0, _⟩ => show win0_8.index t (0 : Fin 2) * 5000 + 1 * p.val = t.val * 5000 + p.val; omega
  | ⟨1, _⟩ => show win0_8.index t (1 : Fin 2) * 64 + 1 * q.val = q.val; omega

/-- Result window 9 likewise. -/
theorem emb_pred (t : Fin cfg0.N) (p : Fin 5000) (r : Fin 32) :
    ((cfg0.win 9).blk t).view.emb (ix2 p r) = ix2 (row t p) r := by
  funext a; apply Fin.ext
  obtain ⟨-, -, -, -, -, -, -, -, -, -, -, -, -, -, -, -, -, -, e0, e1, -⟩ := idx_facts t
  match a with
  | ⟨0, _⟩ => show win0_9.index t (0 : Fin 2) * 5000 + 1 * p.val = t.val * 5000 + p.val; omega
  | ⟨1, _⟩ => show win0_9.index t (1 : Fin 2) * 32 + 1 * r.val = r.val; omega

/-! ## Writing a block back: for ANY stored block X and ANY array G -/

/-- If the stored block X of point t is, entry by entry, the rows 5000·t … of G, then what the point writes back
    through result window 8 is its block of G. -/
theorem writeback_hidden (X : Vec Ideal S5000x64 .f32) (G : S100000x64.Idx → EReal) (t : Fin cfg0.N)
    (h : ∀ (p : Fin 5000) (q : Fin 64), X (ix2 p q) = G (ix2 (row t p) q)) :
    (cfg0.win 8).cut (grid0.coords t) X = ((cfg0.win 8).blk t).view.read (Elt Ideal) G := by
  funext j
  obtain ⟨p, q, rfl⟩ : ∃ (p : Fin 5000) (q : Fin 64), j = ix2 p q := ⟨j 0, j 1, eq_ix2 j⟩
  show X (ix2 p q) = G (((cfg0.win 8).blk t).view.emb (ix2 p q))
  rw [emb_hidden t p q]
  exact h p q

/-- The same through result window 9. -/
theorem writeback_pred (X : Vec Ideal S5000x32 .f32) (G : S100000x32.Idx → EReal) (t : Fin cfg0.N)
    (h : ∀ (p : Fin 5000) (r : Fin 32), X (ix2 p r) = G (ix2 (row t p) r)) :
    (cfg0.win 9).cut (grid0.coords t) X = ((cfg0.win 9).blk t).view.read (Elt Ideal) G := by
  funext j
  obtain ⟨p, r, rfl⟩ : ∃ (p : Fin 5000) (r : Fin 32), j = ix2 p r := ⟨j 0, j 1, eq_ix2 j⟩
  show X (ix2 p r) = G (((cfg0.win 9).blk t).view.emb (ix2 p r))
  rw [emb_pred t p r]
  exact h p r

/-- The body's one store into each result buffer covers it, so the buffer holds the stored value: for ANY loaded
    blocks. -/
theorem stored_hidden (x0 : Vec Ideal S5000x64 .f32) (x1 : Vec Ideal S5000x1 .f32) (x2 : Vec Ideal S5000x64 .f32)
    (x3 x4 : Vec Ideal S64x64 .f32) (x5 : Vec Ideal S1x64 .f32) (x6 : Vec Ideal S64x32 .f32) (x7 : Vec Ideal S1x32 .f32) :
    out0_8 (F := Ideal) x0 x1 x2 x3 x4 x5 x6 x7 = k0_pay1 (F := Ideal) x0 x1 x3 x2 x4 x5 := by
  unfold out0_8
  rw [View.canon_unit_zero hz]
  simp only [View.ld_unit_zero (S := S5000x64) hz, View.ld_unit_zero (S := S5000x1) hz, View.ld_unit_zero (S := S64x64) hz,
    View.ld_unit_zero (S := S1x64) hz]

theorem stored_pred (x0 : Vec Ideal S5000x64 .f32) (x1 : Vec Ideal S5000x1 .f32) (x2 : Vec Ideal S5000x64 .f32)
    (x3 x4 : Vec Ideal S64x64 .f32) (x5 : Vec Ideal S1x64 .f32) (x6 : Vec Ideal S64x32 .f32) (x7 : Vec Ideal S1x32 .f32) :
    out0_9 (F := Ideal) x0 x1 x2 x3 x4 x5 x6 x7 = k0_pay2 (F := Ideal) x0 x1 x3 x2 x4 x5 x6 x7 := by
  unfold out0_9
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x32) hz, View.ld_unit_zero (S := S1x32) hz]

end Cert.KernelIdeal.Blocks

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Dots.lean ====
/-
  The block body's three matrix products and its two broadcasts, read at one entry.

  At the ideal values a product of an [n, 64] block with a [64, c] matrix into the zero accumulator, read at (p, q), is
  the plain sum  Σ_k lhs[p, k] · rhs[k, q]  over the 64 contracted channels: the contraction index of the product's
  dimension record has one axis of extent 64, the left operand is read at (row of the output, k) and the right at
  (k, column of the output). A [5000, 1] column of row scales cast to itself and broadcast across 64 lanes reads, at
  (p, q), the column at p.
-/
import proofs.«136665_j73383811220028_1_alg».proof.Proof.Gen.KernelIdeal
import proofs.«136665_j73383811220028_1_alg».proof.Proof.LibKeepdims
import Idealize.ShloMosaic.Lib.Pipeline.Value
import Idealize.ShloMosaic.Lib.ValueIdx
import Idealize.ShloMosaic.PureOps.Ideal.Laws

noncomputable section

namespace Cert.KernelIdeal.Dots

open Cert.KernelIdeal Cert.KernelIdeal.Gen Idealize.ShloMosaic Idealize.ShloMosaic.ValueIdx

/-! ## The [5000, 64] × [64, 64] product -/

theorem lhs_sq_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_sq_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_sq_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_sq_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The square product at (p, q): the sum over the 64 channels of lhs[p, k] · rhs[k, q]. -/
theorem matmul_sq_apply {φ₁ φ₂ : FTy} (l : FVec Ideal S5000x64 φ₁) (r : FVec Ideal S64x64 φ₂) (p : Fin 5000) (q : Fin 64) :
    matmul (F := Ideal) dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_sq_0 _ _
    | ⟨1, _⟩ => exact (lhs_sq_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_sq_0 _ _).trans hk
    | ⟨1, _⟩ => exact rhs_sq_1 _ _)
  rw [el, er]

/-! ## The [5000, 64] × [64, 32] product -/

theorem lhs_hd_0 (i : S5000x32.Idx) (q : dot_S5000x64_S64x32_S5000x32_1_0_0_1_n_n.contr.Idx) :
    (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem lhs_hd_1 (i : S5000x32.Idx) (q : dot_S5000x64_S64x32_S5000x32_1_0_0_1_n_n.contr.Idx) :
    (dot_S5000x64_S64x32_S5000x32_1_0_0_1_n_n.lhsIdx i q 1).val = (q ⟨0, by decide⟩).val :=
  dot_S5000x64_S64x32_S5000x32_1_0_0_1_n_n.lhsIdx_val_of_single rfl i q
theorem rhs_hd_0 (i : S5000x32.Idx) (q : dot_S5000x64_S64x32_S5000x32_1_0_0_1_n_n.contr.Idx) :
    (dot_S5000x64_S64x32_S5000x32_1_0_0_1_n_n.rhsIdx i q 0).val = (q ⟨0, by decide⟩).val :=
  dot_S5000x64_S64x32_S5000x32_1_0_0_1_n_n.rhsIdx_val_of_single rfl i q
theorem rhs_hd_1 (i : S5000x32.Idx) (q : dot_S5000x64_S64x32_S5000x32_1_0_0_1_n_n.contr.Idx) :
    (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The head's product at (p, r): the sum over the 64 hidden channels of lhs[p, k] · rhs[k, r]. -/
theorem matmul_hd_apply {φ₁ φ₂ : FTy} (l : FVec Ideal S5000x64 φ₁) (r : FVec Ideal S64x32 φ₂) (p : Fin 5000) (q : Fin 32) :
    matmul (F := Ideal) dot_S5000x64_S64x32_S5000x32_1_0_0_1_n_n none l r (constant S5000x32 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x32_S5000x32_1_0_0_1_n_n 64 rfl rfl).symm]
  refine Finset.sum_congr rfl fun k _ => ?_
  have hk := ValueIdx.contrEquiv1_symm_val dot_S5000x64_S64x32_S5000x32_1_0_0_1_n_n 64 rfl rfl k
  have el : dot_S5000x64_S64x32_S5000x32_1_0_0_1_n_n.lhsIdx (ix2 p q) ((ValueIdx.contrEquiv1 dot_S5000x64_S64x32_S5000x32_1_0_0_1_n_n 64 rfl rfl).symm k) = ix2 p k := funext fun a => Fin.ext (by
    match a with
    | ⟨0, _⟩ => exact lhs_hd_0 _ _
    | ⟨1, _⟩ => exact (lhs_hd_1 _ _).trans hk)
  have er : dot_S5000x64_S64x32_S5000x32_1_0_0_1_n_n.rhsIdx (ix2 p q) ((ValueIdx.contrEquiv1 dot_S5000x64_S64x32_S5000x32_1_0_0_1_n_n 64 rfl rfl).symm k) = ix2 k q := funext fun a => Fin.ext (by
    match a with
    | ⟨0, _⟩ => exact (rhs_hd_0 _ _).trans hk
    | ⟨1, _⟩ => exact rhs_hd_1 _ _)
  rw [el, er]

/-! ## The column of row scales across the lanes -/

/-- A [a, 1] column cast to its own shape and broadcast across the b lanes of [a, b]: at (p, q), the column at p. -/
theorem column_lanes_apply {α : Type} {a b : ℕ} (v : (⟨2, ![a, 1]⟩ : Shape).Idx → α)
    (h₁ : (⟨2, ![a, 1]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix2 p (0 : Fin 1)) := by
  refine (broadcastTo_apply _ h₂ (ix2 p q) (ix2 p (0 : Fin 1)) fun ax => ?_).trans (congrFun (shapeCast_self v h₁) _)
  match ax with
  | ⟨0, _⟩ =>
    show p.val = if a = 1 then 0 else p.val
    split
    · have := p.isLt; omega
    · rfl
  | ⟨1, _⟩ => rfl

end Cert.KernelIdeal.Dots

end
-- ==== Proof.Payload.lean ====
/-
  What the block body stores, read at one entry.

  From the loaded blocks — the aggregated rows, the column of row scales, the node features, the two square weight
  matrices, the bias row, the head's matrix and its bias row — the body stores, at (p, q) of the hidden block,
      max (Σ_k (agg[p, k] · scale[p]) · W[k, q]  +  Σ_k u[p, k] · B[k, q]  +  bias[q]) 0
  and at (p, r) of the prediction block  Σ_k hidden[p, k] · Wp[k, r] + bp[r]  over that same hidden block. The casts
  to the narrower float format in front of each product change nothing at the ideal values.
-/
import proofs.«136665_j73383811220028_1_alg».proof.Proof.Gen.KernelIdeal.Skeleton
import proofs.«136665_j73383811220028_1_alg».proof.Proof.Dots
import proofs.«136665_j73383811220028_1_alg».proof.Proof.Spec

noncomputable section

namespace Cert.KernelIdeal.Payload

open Cert.KernelIdeal Cert.KernelIdeal.Gen Idealize.ShloMosaic Idealize.ShloMosaic.ValueIdx Cert.GraphLayer

/-- The stored hidden block at (p, q). -/
theorem hidden_at (x0 : Vec Ideal S5000x64 .f32) (x1 : Vec Ideal S5000x1 .f32) (w : Vec Ideal S64x64 .f32)
    (x2 : Vec Ideal S5000x64 .f32) (bm : Vec Ideal S64x64 .f32) (bias : Vec Ideal S1x64 .f32) (p : Fin 5000) (q : Fin 64) :
    k0_pay1 (F := Ideal) x0 x1 w x2 bm bias (ix2 p q)
      = hiddenAt (fun p k => x0 (ix2 p k) * x1 (ix2 p (0 : Fin 1))) (fun p k => x2 (ix2 p k))
          (fun k q => w (ix2 k q)) (fun k q => bm (ix2 k q)) (fun q => bias (ix2 (0 : Fin 1) q)) p q := by
  unfold k0_pay1 hiddenAt
  refine congrArg₂ (fun a b : EReal => max a b) (congrArg₂ (fun a b : EReal => a + b) (congrArg₂ (fun a b : EReal => a + b) ?_ ?_) ?_) rfl
  · refine (Dots.matmul_sq_apply _ _ p q).trans (Finset.sum_congr rfl fun k _ => ?_)
    refine congrArg₂ (fun a b : EReal => a * b) ?_ rfl
    exact congrArg₂ (fun a b : EReal => a * b) (congrFun (shapeCast_self x0 _) _) (Dots.column_lanes_apply x1 _ _ p k)
  · exact Dots.matmul_sq_apply _ _ p q
  · exact Cert.LibKeepdims.row_broadcast_apply bias _ _ p q

/-- The stored prediction block at (p, r), over the stored hidden block. -/
theorem pred_at (x0 : Vec Ideal S5000x64 .f32) (x1 : Vec Ideal S5000x1 .f32) (w : Vec Ideal S64x64 .f32)
    (x2 : Vec Ideal S5000x64 .f32) (bm : Vec Ideal S64x64 .f32) (bias : Vec Ideal S1x64 .f32)
    (wp : Vec Ideal S64x32 .f32) (bp : Vec Ideal S1x32 .f32) (p : Fin 5000) (r : Fin 32) :
    k0_pay2 (F := Ideal) x0 x1 w x2 bm bias wp bp (ix2 p r)
      = predAt (fun p k => k0_pay1 (F := Ideal) x0 x1 w x2 bm bias (ix2 p k)) (fun k r => wp (ix2 k r))
          (fun r => bp (ix2 (0 : Fin 1) r)) p r := by
  unfold k0_pay2 predAt
  refine congrArg₂ (fun a b : EReal => a + b) ?_ ?_
  · exact Dots.matmul_hd_apply _ _ p r
  · exact Cert.LibKeepdims.row_broadcast_apply bp _ _ p r

end Cert.KernelIdeal.Payload

end
-- ==== Proof.Stored.lean ====
/-
  What a point stores is its rows of the layer's two formulas.

  For ANY contents of the eight arrays the windows read: the hidden block stored at point t, at (p, q), is hidden at
  row 5000·t + p and column q of the whole arrays — with mean[p, k] = agg[p, k] · recip[p] —, because hidden[p, ·]
  reads row p of its row inputs only and the block holds exactly those rows, the weights and the bias row whole; and
  the prediction block at (p, r) is pred at row 5000·t + p over that hidden array.
-/
import proofs.«136665_j73383811220028_1_alg».proof.Proof.Blocks
import proofs.«136665_j73383811220028_1_alg».proof.Proof.Payload

noncomputable section

namespace Cert.KernelIdeal.Stored

open Cert.KernelIdeal Cert.KernelIdeal.Gen Cert.KernelIdeal.Blocks Idealize.ShloMosaic
open Idealize.ShloMosaic.ValueIdx Cert.GraphLayer

/-- The hidden array over given contents of the six arrays it reads. -/
def hiddenOf (agg : S100000x64.Idx → EReal) (recip : S100000x1.Idx → EReal) (feat : S100000x64.Idx → EReal)
    (w bm : S64x64.Idx → EReal) (bias : S1x64.Idx → EReal) : S100000x64.Idx → EReal := fun i =>
  hiddenAt (fun p k => agg (ix2 p k) * recip (ix2 p (0 : Fin 1))) (fun p k => feat (ix2 p k)) (fun k q => w (ix2 k q))
    (fun k q => bm (ix2 k q)) (fun q => bias (ix2 (0 : Fin 1) q)) (i 0) (i 1)

/-- The prediction array over a hidden array, the head's matrix and its bias row. -/
def predOf (hid : S100000x64.Idx → EReal) (head : S64x32.Idx → EReal) (hb : S1x32.Idx → EReal) : S100000x32.Idx → EReal := fun i =>
  predAt (fun p k => hid (ix2 p k)) (fun k r => head (ix2 k r)) (fun r => hb (ix2 (0 : Fin 1) r)) (i 0) (i 1)

/-! The blocks of given arrays at a point, at their literal shapes. -/
abbrev blk0 (A : S100000x64.Idx → EReal) (t : Fin cfg0.N) : Vec Ideal S5000x64 .f32 := ((cfg0.win 0).blk t).view.read (Elt Ideal) A
abbrev blk1 (A : S100000x1.Idx → EReal) (t : Fin cfg0.N) : Vec Ideal S5000x1 .f32 := ((cfg0.win 1).blk t).view.read (Elt Ideal) A
abbrev blk2 (A : S100000x64.Idx → EReal) (t : Fin cfg0.N) : Vec Ideal S5000x64 .f32 := ((cfg0.win 2).blk t).view.read (Elt Ideal) A
abbrev blk3 (A : S64x64.Idx → EReal) (t : Fin cfg0.N) : Vec Ideal S64x64 .f32 := ((cfg0.win 3).blk t).view.read (Elt Ideal) A
abbrev blk4 (A : S64x64.Idx → EReal) (t : Fin cfg0.N) : Vec Ideal S64x64 .f32 := ((cfg0.win 4).blk t).view.read (Elt Ideal) A
abbrev blk5 (A : S1x64.Idx → EReal) (t : Fin cfg0.N) : Vec Ideal S1x64 .f32 := ((cfg0.win 5).blk t).view.read (Elt Ideal) A
abbrev blk6 (A : S64x32.Idx → EReal) (t : Fin cfg0.N) : Vec Ideal S64x32 .f32 := ((cfg0.win 6).blk t).view.read (Elt Ideal) A
abbrev blk7 (A : S1x32.Idx → EReal) (t : Fin cfg0.N) : Vec Ideal S1x32 .f32 := ((cfg0.win 7).blk t).view.read (Elt Ideal) A

/-- The stored hidden block at (p, q) is the hidden array at (5000·t + p, q). -/
theorem hidden_blk (agg : S100000x64.Idx → EReal) (recip : S100000x1.Idx → EReal) (feat : S100000x64.Idx → EReal)
    (w bm : S64x64.Idx → EReal) (bias : S1x64.Idx → EReal) (t : Fin cfg0.N) (p : Fin 5000) (q : Fin 64) :
    k0_pay1 (F := Ideal) (blk0 agg t) (blk1 recip t) (blk3 w t) (blk2 feat t) (blk4 bm t) (blk5 bias t) (ix2 p q)
      = hiddenOf agg recip feat w bm bias (ix2 (row t p) q) := by
  refine (Payload.hidden_at (blk0 agg t) (blk1 recip t) (blk3 w t) (blk2 feat t) (blk4 bm t) (blk5 bias t) p q).trans ?_
  show _ = hiddenAt (fun p k => agg (ix2 p k) * recip (ix2 p (0 : Fin 1))) (fun p k => feat (ix2 p k)) (fun k q => w (ix2 k q))
    (fun k q => bm (ix2 k q)) (fun q => bias (ix2 (0 : Fin 1) q)) (row t p) q
  exact hiddenAt_congr
    (fun k => congrArg₂ (fun a b : EReal => a * b) (read_rows0 agg t p k) (read_rows1 recip t p))
    (fun k => read_rows2 feat t p k) (fun k q => read_whole3 w t (ix2 k q)) (fun k q => read_whole4 bm t (ix2 k q))
    (fun q => read_whole5 bias t (ix2 (0 : Fin 1) q)) q

/-- The stored prediction block at (p, r) is the prediction array at (5000·t + p, r). -/
theorem pred_blk (agg : S100000x64.Idx → EReal) (recip : S100000x1.Idx → EReal) (feat : S100000x64.Idx → EReal)
    (w bm : S64x64.Idx → EReal) (bias : S1x64.Idx → EReal) (head : S64x32.Idx → EReal) (hb : S1x32.Idx → EReal)
    (t : Fin cfg0.N) (p : Fin 5000) (r : Fin 32) :
    k0_pay2 (F := Ideal) (blk0 agg t) (blk1 recip t) (blk3 w t) (blk2 feat t) (blk4 bm t) (blk5 bias t) (blk6 head t) (blk7 hb t) (ix2 p r)
      = predOf (hiddenOf agg recip feat w bm bias) head hb (ix2 (row t p) r) := by
  refine (Payload.pred_at (blk0 agg t) (blk1 recip t) (blk3 w t) (blk2 feat t) (blk4 bm t) (blk5 bias t) (blk6 head t) (blk7 hb t) p r).trans ?_
  show _ = predAt (fun p k => hiddenOf agg recip feat w bm bias (ix2 p k)) (fun k r => head (ix2 k r))
    (fun r => hb (ix2 (0 : Fin 1) r)) (row t p) r
  exact predAt_congr (fun k => hidden_blk agg recip feat w bm bias t p k) (fun k r => read_whole6 head t (ix2 k r))
    (fun r => read_whole7 hb t (ix2 (0 : Fin 1) r)) r

end Cert.KernelIdeal.Stored

end
-- ==== Proof.KernelValue.lean ====
/-
  The kernel's two result arrays after the run, as whole arrays.

  Point t writes back rows 5000·t … 5000·t + 4999 of the hidden array and of the prediction array of the layer's
  formulas over the arrays the windows read (Stored); the twenty blocks tile the 100000 rows — row i lies in block
  i / 5000 —, so after the run each result array holds its formula everywhere.
-/
import proofs.«136665_j73383811220028_1_alg».proof.Proof.Gen.KernelIdeal.Value
import proofs.«136665_j73383811220028_1_alg».proof.Proof.Stored

set_option maxRecDepth 16384

noncomputable section

namespace Cert.KernelIdeal.Whole

open Cert.KernelIdeal Cert.KernelIdeal.Gen Cert.KernelIdeal.Blocks Cert.KernelIdeal.Stored
open Idealize.ShloMosaic Idealize.ShloMosaic.TcCoe Idealize.SL.Sem
open Idealize.ShloMosaic.Pipeline (Dat)
open Idealize.ShloMosaic.ValueIdx Cert.GraphLayer

variable (m : (ℓ : Loc nD τ sig) → Buf (Elt Ideal) ℓ) (ρ : Dev nD → PrngReg)

/-- The hidden result: the layer's formula over the arrays the launch finds. -/
def hiddenArr (c : Dev nD) : S100000x64.Idx → EReal :=
  hiddenOf (V m c main_v13) (V m c main_v22) (V m c main_arg1) (V m c main_arg3) (V m c main_arg4) (V m c main_v23)

/-- The prediction: the head's formula over that hidden array. -/
def predArr (c : Dev nD) : S100000x32.Idx → EReal :=
  predOf (hiddenArr m c) (V m c main_arg6) (V m c main_v24)

/-! ## The hidden result: what a point writes back, the cover, the array -/

/-- The blocks the launch stages are the blocks of the arrays it finds. -/
theorem hidden_stored (c : Dev nD) (t : Fin cfg0.N) (p : Fin 5000) (q : Fin 64) :
    k0_pay1 (F := Ideal) (iblk m c 0 t) (iblk m c 1 t) (iblk m c 3 t) (iblk m c 2 t) (iblk m c 4 t) (iblk m c 5 t) (ix2 p q)
      = hiddenArr m c (ix2 (row t p) q) :=
  hidden_blk (V m c main_v13) (V m c main_v22) (V m c main_arg1) (V m c main_arg3) (V m c main_arg4) (V m c main_v23) t p q

theorem flushed_hidden (c : Dev nD) (t : Fin cfg0.N) :
    (dats m 0 c).flushed 8 t = ((cfg0.win 8).blk t).view.read (Elt Ideal) (hiddenArr m c) := by
  refine (Value.flushed8 m c t).trans ?_
  refine (congrArg ((cfg0.win 8).cut (grid0.coords t))
    (stored_hidden (iblk m c 0 t) (iblk m c 1 t) (iblk m c 2 t) (iblk m c 3 t) (iblk m c 4 t) (iblk m c 5 t) (iblk m c 6 t) (iblk m c 7 t))).trans ?_
  exact writeback_hidden
    (k0_pay1 (F := Ideal) (iblk m c 0 t) (iblk m c 1 t) (iblk m c 3 t) (iblk m c 2 t) (iblk m c 4 t) (iblk m c 5 t))
    (hiddenArr m c) t (fun p q => hidden_stored m c t p q)

theorem mem_blk_hidden (t : Fin cfg0.N) (i : S100000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v25_0).slice (win0_8.rect t)).set ↔ _
  rw [View.set_slice_whole, Rect.mem_set_unit]
  exact Iff.rfl

theorem cover_hidden (i : S100000x64.Idx) :
    ∃ t : Fin cfg0.N, (cfg0.win 8).flush t = true ∧ i ∈ ((cfg0.win 8).blk t).view.set := by
  have hi0 : (i 0).val < 100000 := (i 0).isLt
  have hi1 : (i 1).val < 64 := (i 1).isLt
  obtain ⟨t, ht⟩ := idx_onto ⟨(i 0).val / 5000, by omega⟩
  have ht' : t.val = (i 0).val / 5000 := ht
  obtain ⟨-, -, -, -, -, -, -, -, -, -, -, -, -, -, -, -, e0, e1, -⟩ := idx_facts t
  refine ⟨t, flush0_8 t, ?_⟩
  rw [mem_blk_hidden]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

theorem final_hidden (c : Dev nD) : (dats m 0 c).arrAt 8 cfg0.N = hiddenArr m c :=
  (dats m 0 c).arrAt_eq_of_cover 8 (hiddenArr m c) (fun t _ => flushed_hidden m c t) cover_hidden

/-! ## The prediction: the same three steps -/

theorem pred_stored (c : Dev nD) (t : Fin cfg0.N) (p : Fin 5000) (r : Fin 32) :
    k0_pay2 (F := Ideal) (iblk m c 0 t) (iblk m c 1 t) (iblk m c 3 t) (iblk m c 2 t) (iblk m c 4 t) (iblk m c 5 t)
        (iblk m c 6 t) (iblk m c 7 t) (ix2 p r)
      = predArr m c (ix2 (row t p) r) :=
  pred_blk (V m c main_v13) (V m c main_v22) (V m c main_arg1) (V m c main_arg3) (V m c main_arg4) (V m c main_v23)
    (V m c main_arg6) (V m c main_v24) t p r

theorem flushed_pred (c : Dev nD) (t : Fin cfg0.N) :
    (dats m 0 c).flushed 9 t = ((cfg0.win 9).blk t).view.read (Elt Ideal) (predArr m c) := by
  refine (Value.flushed9 m c t).trans ?_
  refine (congrArg ((cfg0.win 9).cut (grid0.coords t))
    (stored_pred (iblk m c 0 t) (iblk m c 1 t) (iblk m c 2 t) (iblk m c 3 t) (iblk m c 4 t) (iblk m c 5 t) (iblk m c 6 t) (iblk m c 7 t))).trans ?_
  exact writeback_pred
    (k0_pay2 (F := Ideal) (iblk m c 0 t) (iblk m c 1 t) (iblk m c 3 t) (iblk m c 2 t) (iblk m c 4 t) (iblk m c 5 t) (iblk m c 6 t) (iblk m c 7 t))
    (predArr m c) t (fun p r => pred_stored m c t p r)

theorem mem_blk_pred (t : Fin cfg0.N) (i : S100000x32.Idx) :
    i ∈ ((cfg0.win 9).blk t).view.set ↔ ∀ a : Fin 2, win0_9.index t a * S5000x32.size a ≤ (i a).val ∧ (i a).val < win0_9.index t a * S5000x32.size a + S5000x32.size a := by
  show i ∈ ((View.whole main_v25_1).slice (win0_9.rect t)).set ↔ _
  rw [View.set_slice_whole, Rect.mem_set_unit]
  exact Iff.rfl

theorem cover_pred (i : S100000x32.Idx) :
    ∃ t : Fin cfg0.N, (cfg0.win 9).flush t = true ∧ i ∈ ((cfg0.win 9).blk t).view.set := by
  have hi0 : (i 0).val < 100000 := (i 0).isLt
  have hi1 : (i 1).val < 32 := (i 1).isLt
  obtain ⟨t, ht⟩ := idx_onto ⟨(i 0).val / 5000, by omega⟩
  have ht' : t.val = (i 0).val / 5000 := ht
  obtain ⟨-, -, -, -, -, -, -, -, -, -, -, -, -, -, -, -, -, -, e0, e1, -⟩ := idx_facts t
  refine ⟨t, flush0_9 t, ?_⟩
  rw [mem_blk_pred]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 32 ≤ (i 1).val ∧ (i 1).val < win0_9.index t (1 : Fin 2) * 32 + 32; omega

theorem final_pred (c : Dev nD) : (dats m 0 c).arrAt 9 cfg0.N = predArr m c :=
  (dats m 0 c).arrAt_eq_of_cover 9 (predArr m c) (fun t _ => flushed_pred m c t) cover_pred

/-! ## The run, read -/

/-- Every fair execution of the kernel's program ends with the two results at the two formulas and the arguments
    as they were. -/
theorem run : θ_run defs (onTc (τ := τ) (main (F := Ideal))) ⟨m, fun _ => 0, ρ⟩ fun r => ∀ c : Dev nD,
      r.2.mem ((c : Thread nD τ).loc main_v25_0) = hiddenArr m c
      ∧ r.2.mem ((c : Thread nD τ).loc main_v25_1) = predArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_hidden m c), (h c).2.1.trans (final_pred m c), (h c).2.2⟩)
    (Value.run_blocks m ρ)

end Cert.KernelIdeal.Whole

end
-- ==== Proof.KernelHost.lean ====
/-
  What the kernel's launch finds in the arrays its windows read.

  Before the one launch the host program computes, from the node rows and the edge list, the aggregated sums agg
  (gather the source rows, scatter-add them at the destinations) and the degree deg (scatter-add of ones), clamps the
  degree below at 1, takes the reciprocal 1 / d and lays it out as a column; it also lays the two bias vectors out
  as rows. The aggregated sums and the clamped degree are the very stages the reference program computes, so they are
  named by the reference's stage functions. The reciprocal column at row p is 1 / d[p], and each bias row at lane q
  is the bias vector at q.
-/
import proofs.«136665_j73383811220028_1_alg».proof.Proof.Gen.KernelIdeal.Frame
import proofs.«136665_j73383811220028_1_alg».proof.Proof.Gen.ReferenceIdeal.Read
import Idealize.ShloMosaic.Lib.StableHlo.Run
import Idealize.ShloMosaic.Lib.Pipeline.Value
import Idealize.ShloMosaic.Lib.ValueIdx

noncomputable section

namespace Cert.KernelIdeal.HostSide

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregated sums the first window reads are the reference's scatter-add stage of the same node rows and
    edge list. -/
theorem agg_eq (c : Dev nD) :
    (V m c main_v13 : S100000x64.Idx → EReal)
      = Cert.ReferenceIdeal.Read.val_main_v13 (F := Ideal) (m ((c : Thread nD τ).loc main_arg0)) (m ((c : Thread nD τ).loc main_arg2)) := by
  dsimp only [V, hostOps0]
  after_results
  rfl

/-- The column the second window reads: the reciprocal of the reference's clamped-degree stage, as a column. -/
theorem recip_eq (c : Dev nD) :
    (V m c main_v22 : S100000x1.Idx → EReal)
      = broadcastInDim S100000x1 ![0] Facts₀.bcast_S100000_S100000x1_0
          (Host.divf (broadcastInDim S100000 ![] Facts₀.bcast_S_S100000 (constant (F := Ideal) S_ .f32 0x3F800000#32))
            (Cert.ReferenceIdeal.Read.val_main_v19 (F := Ideal) (m ((c : Thread nD τ).loc main_arg2)))) := by
  dsimp only [V, hostOps0]
  after_results
  rfl

/-- For ANY degree array d: the column of reciprocals 1 / d, read at row p, is 1 / d[p]. -/
theorem recip_column_at (d : (⟨S100000, .f32⟩ : BufTy).Contents (Elt Ideal)) (p : Fin 100000) :
    broadcastInDim S100000x1 ![0] Facts₀.bcast_S100000_S100000x1_0
        (Host.divf (broadcastInDim S100000 ![] Facts₀.bcast_S_S100000 (constant (F := Ideal) S_ .f32 0x3F800000#32)) d)
        (ix2 p (0 : Fin 1))
      = Ideal.div (Ideal.ofBits .f32 0x3F800000#32) (d (ix1 p)) := by
  refine (broadcastInDim_apply _ Facts₀.bcast_S100000_S100000x1_0 _ (ix2 p (0 : Fin 1)) (ix1 p) (fun a => match a with
    | ⟨0, _⟩ => by show p.val = if (100000 : Nat) = 1 then 0 else p.val; rw [if_neg (by decide)])).trans ?_
  show Ideal.div (broadcastInDim S100000 ![] Facts₀.bcast_S_S100000 (constant (F := Ideal) S_ .f32 0x3F800000#32) (ix1 p)) (d (ix1 p)) = _
  rw [broadcastInDim_apply _ Facts₀.bcast_S_S100000 _ (ix1 p) ix0 (fun a => a.elim0)]
  rfl

/-- At row p the column the second window reads holds 1 / d[p]. -/
theorem recip_at (c : Dev nD) (p : Fin 100000) :
    (V m c main_v22 : S100000x1.Idx → EReal) (ix2 p (0 : Fin 1))
      = Ideal.div (Ideal.ofBits .f32 0x3F800000#32)
          (Cert.ReferenceIdeal.Read.val_main_v19 (F := Ideal) (m ((c : Thread nD τ).loc main_arg2)) (ix1 p)) :=
  (congrFun (recip_eq m c) (ix2 p (0 : Fin 1))).trans
    (recip_column_at (Cert.ReferenceIdeal.Read.val_main_v19 (F := Ideal) (m ((c : Thread nD τ).loc main_arg2))) p)

/-- The bias row the sixth window reads is the bias vector laid along the lanes. -/
theorem bias_eq (c : Dev nD) :
    (V m c main_v23 : S1x64.Idx → EReal)
      = broadcastInDim S1x64 ![1] Facts₀.bcast_S64_S1x64_1 (m ((c : Thread nD τ).loc main_arg5)) := by
  dsimp only [V, hostOps0]
  after_results

theorem bias_at (c : Dev nD) (q : Fin 64) :
    (V m c main_v23 : S1x64.Idx → EReal) (ix2 (0 : Fin 1) q) = m ((c : Thread nD τ).loc main_arg5) (ix1 q) := by
  refine (congrFun (bias_eq m c) (ix2 (0 : Fin 1) q)).trans ?_
  exact broadcastInDim_apply _ Facts₀.bcast_S64_S1x64_1 _ (ix2 (0 : Fin 1) q) (ix1 q) (fun a => match a with
    | ⟨0, _⟩ => by show q.val = if (64 : Nat) = 1 then 0 else q.val; rw [if_neg (by decide)])

/-- The head's bias row likewise. -/
theorem headBias_eq (c : Dev nD) :
    (V m c main_v24 : S1x32.Idx → EReal)
      = broadcastInDim S1x32 ![1] Facts₀.bcast_S32_S1x32_1 (m ((c : Thread nD τ).loc main_arg7)) := by
  dsimp only [V, hostOps0]
  after_results

theorem headBias_at (c : Dev nD) (r : Fin 32) :
    (V m c main_v24 : S1x32.Idx → EReal) (ix2 (0 : Fin 1) r) = m ((c : Thread nD τ).loc main_arg7) (ix1 r) := by
  refine (congrFun (headBias_eq m c) (ix2 (0 : Fin 1) r)).trans ?_
  exact broadcastInDim_apply _ Facts₀.bcast_S32_S1x32_1 _ (ix2 (0 : Fin 1) r) (ix1 r) (fun a => match a with
    | ⟨0, _⟩ => by show r.val = if (32 : Nat) = 1 then 0 else r.val; rw [if_neg (by decide)])

end Cert.KernelIdeal.HostSide

end
-- ==== Proof.RefValue.lean ====
/-
  The reference, read at one entry.

  Its straight-line program divides the aggregated sums by the clamped degree, contracts the quotient with W and the
  node features with B over the 64 channels, adds the bias along the rows, clamps at zero, and then contracts the
  result with the head's matrix and adds the head's bias. Read at (p, q) through the stage-by-stage reading of that
  program this is hidden[p, q] of the layer's formula with mean[p, k] = agg[p, k] / d[p], and at (p, r) it is
  pred[p, r] over that hidden array. The aggregated sums agg (a scatter-add of gathered rows) and the clamped degree
  d (a scatter-add of ones, clamped below at 1) stay as the program's own stages: both programs compute them alike.
-/
import proofs.«136665_j73383811220028_1_alg».proof.Proof.Gen.ReferenceIdeal.Read
import proofs.«136665_j73383811220028_1_alg».proof.Proof.Spec

noncomputable section

namespace Cert.ReferenceIdeal.RefValue

open Cert.ReferenceIdeal Cert.ReferenceIdeal.Read Idealize.ShloMosaic Idealize.ShloMosaic.ValueIdx Cert.GraphLayer

variable (x0 x1 : (⟨S100000x64, .f32⟩ : BufTy).Contents (Elt Ideal)) (x2 : (⟨S2x1600000, .i32⟩ : BufTy).Contents (Elt Ideal))
  (x3 x4 : (⟨S64x64, .f32⟩ : BufTy).Contents (Elt Ideal)) (x5 : (⟨S64, .f32⟩ : BufTy).Contents (Elt Ideal))
  (x6 : (⟨S64x32, .f32⟩ : BufTy).Contents (Elt Ideal)) (x7 : (⟨S32, .f32⟩ : BufTy).Contents (Elt Ideal))

/-- The mean aggregation: the aggregated sum at (p, k) divided by node p's clamped degree. -/
def mean (p : Fin 100000) (k : Fin 64) : EReal :=
  Ideal.div (val_main_v13 (F := Ideal) x0 x2 (ix2 p k)) (val_main_v19 (F := Ideal) x2 (ix1 p))

/-- The quotient stage at (p, k) is that mean: the divisor is the clamped degree broadcast along the row. -/
theorem quotient_at (p : Fin 100000) (k : Fin 64) : val_main_v22 (F := Ideal) x0 x2 (ix2 p k) = mean x0 x2 p k := by
  rw [val_main_v22_apply, val_main_v21_apply, val_main_v20_apply]
  have e : idx_main_v20 (idx_main_v21 (ix2 p k)) = ix1 p := funext fun a => Fin.ext (by match a with | ⟨0, _⟩ => rfl)
  rw [e]
  rfl

/-- The first result at (p, q) is hidden[p, q]. -/
theorem hidden_at (p : Fin 100000) (q : Fin 64) :
    val_main_v29 (F := Ideal) x0 x1 x2 x3 x4 x5 (ix2 p q)
      = hiddenAt (mean x0 x2) (fun p k => x1 (ix2 p k)) (fun k q => x3 (ix2 k q)) (fun k q => x4 (ix2 k q))
          (fun q => x5 (ix1 q)) p q := by
  rw [val_main_v29_apply, val_main_v28_apply, val_main_v25_apply, val_main_v23_apply, val_main_v24_apply,
    val_main_v27_apply, val_main_v26_apply, val_main_call0_v0_apply, val_main_call0_cst_apply]
  unfold hiddenAt
  refine congrArg₂ (fun a b : EReal => max a b) (congrArg₂ (fun a b : EReal => a + b) (congrArg₂ (fun a b : EReal => a + b) ?_ ?_) ?_) rfl
  · refine Finset.sum_congr rfl fun k _ => congrArg₂ (fun a b : EReal => a * b) ?_ ?_
    · have e : lidx_main_v23 (ix2 p q) k = ix2 p k :=
        funext fun a => Fin.ext (by match a with | ⟨0, _⟩ => rfl | ⟨1, _⟩ => rfl)
      rw [e]
      exact quotient_at x0 x2 p k
    · exact congrArg x3 (funext fun a => Fin.ext (by match a with | ⟨0, _⟩ => rfl | ⟨1, _⟩ => rfl))
  · refine Finset.sum_congr rfl fun k _ => congrArg₂ (fun a b : EReal => a * b) ?_ ?_
    · exact congrArg x1 (funext fun a => Fin.ext (by match a with | ⟨0, _⟩ => rfl | ⟨1, _⟩ => rfl))
    · exact congrArg x4 (funext fun a => Fin.ext (by match a with | ⟨0, _⟩ => rfl | ⟨1, _⟩ => rfl))
  · exact congrArg x5 (funext fun a => Fin.ext (by match a with | ⟨0, _⟩ => rfl))

/-- The second result at (p, r) is pred[p, r] over the first result. -/
theorem pred_at (p : Fin 100000) (r : Fin 32) :
    val_main_v33 (F := Ideal) x0 x1 x2 x3 x4 x5 x6 x7 (ix2 p r)
      = predAt (fun p k => val_main_v29 (F := Ideal) x0 x1 x2 x3 x4 x5 (ix2 p k)) (fun k r => x6 (ix2 k r))
          (fun r => x7 (ix1 r)) p r := by
  rw [val_main_v33_apply, val_main_v30_apply, val_main_v32_apply, val_main_v31_apply]
  unfold predAt
  refine congrArg₂ (fun a b : EReal => a + b) ?_ ?_
  · refine Finset.sum_congr rfl fun k _ => congrArg₂ (fun a b : EReal => a * b) ?_ ?_
    · exact congrArg (val_main_v29 (F := Ideal) x0 x1 x2 x3 x4 x5)
        (funext fun a => Fin.ext (by match a with | ⟨0, _⟩ => rfl | ⟨1, _⟩ => rfl))
    · exact congrArg x6 (funext fun a => Fin.ext (by match a with | ⟨0, _⟩ => rfl | ⟨1, _⟩ => rfl))
  · exact congrArg x7 (funext fun a => Fin.ext (by match a with | ⟨0, _⟩ => rfl))

end Cert.ReferenceIdeal.RefValue

end
-- ==== Proof.Bridge.lean ====
/-
  The kernel's two result arrays are the reference's two results.

  Both programs compute the aggregated sums agg and the clamped degree d = max (deg, 1) by the same host stages. The
  kernel's mean is agg[p, k] · (1 / d[p]) and the reference's is agg[p, k] / d[p]; since d[p] ≥ 1 is not zero these
  are one extended real (Spec: multiplying by the reciprocal of a clamped degree is dividing by it). The node
  features and the weight matrices reach the kernel's windows unchanged, and its bias rows hold the bias vectors, so
  hidden and pred, which are the same formulas on both sides, take the same inputs.
-/
import proofs.«136665_j73383811220028_1_alg».proof.Proof.KernelValue
import proofs.«136665_j73383811220028_1_alg».proof.Proof.KernelHost
import proofs.«136665_j73383811220028_1_alg».proof.Proof.RefValue

noncomputable section

namespace Cert.Bridge

open Cert.KernelIdeal Cert.KernelIdeal.Gen Cert.KernelIdeal.Stored Idealize.ShloMosaic Idealize.ShloMosaic.TcCoe Idealize.SL.Sem
open Idealize.ShloMosaic.ValueIdx Cert.GraphLayer

/-! ## The two array formulas at an entry, for any contents -/

theorem hiddenOf_at (agg : S100000x64.Idx → EReal) (recip : S100000x1.Idx → EReal) (feat : S100000x64.Idx → EReal)
    (w bm : S64x64.Idx → EReal) (bias : S1x64.Idx → EReal) (p : Fin 100000) (q : Fin 64) :
    hiddenOf agg recip feat w bm bias (ix2 p q)
      = hiddenAt (fun p k => agg (ix2 p k) * recip (ix2 p (0 : Fin 1))) (fun p k => feat (ix2 p k)) (fun k q => w (ix2 k q))
          (fun k q => bm (ix2 k q)) (fun q => bias (ix2 (0 : Fin 1) q)) p q := rfl

theorem predOf_at (hid : S100000x64.Idx → EReal) (head : S64x32.Idx → EReal) (hb : S1x32.Idx → EReal) (p : Fin 100000) (r : Fin 32) :
    predOf hid head hb (ix2 p r)
      = predAt (fun p k => hid (ix2 p k)) (fun k r => head (ix2 k r)) (fun r => hb (ix2 (0 : Fin 1) r)) p r := rfl

variable (m : (ℓ : Loc nD τ sig) → Buf (Elt Ideal) ℓ)

/-! The arrays the launch finds, at their literal types. -/
abbrev aggArr (c : Dev nD) : S100000x64.Idx → EReal := V m c main_v13
abbrev recipArr (c : Dev nD) : S100000x1.Idx → EReal := V m c main_v22
abbrev featArr (c : Dev nD) : S100000x64.Idx → EReal := V m c main_arg1
abbrev wArr (c : Dev nD) : S64x64.Idx → EReal := V m c main_arg3
abbrev bmArr (c : Dev nD) : S64x64.Idx → EReal := V m c main_arg4
abbrev biasArr (c : Dev nD) : S1x64.Idx → EReal := V m c main_v23
abbrev headArr (c : Dev nD) : S64x32.Idx → EReal := V m c main_arg6
abbrev headBiasArr (c : Dev nD) : S1x32.Idx → EReal := V m c main_v24

/-- The clamped degree at node p is the larger of the degree and the value of the pattern of 1.0. -/
theorem clamped_at (x2 : (⟨Cert.ReferenceIdeal.S2x1600000, .i32⟩ : BufTy).Contents (Elt Ideal)) (p : Fin 100000) :
    Cert.ReferenceIdeal.Read.val_main_v19 (F := Ideal) x2 (ix1 p)
      = max (Cert.ReferenceIdeal.Read.val_main_v17 (F := Ideal) x2 (ix1 p)) (Ideal.ofBits .f32 0x3F800000#32) := by
  rw [Cert.ReferenceIdeal.Read.val_main_v19_apply, Cert.ReferenceIdeal.Read.val_main_v18_apply,
    Cert.ReferenceIdeal.Read.val_main_cst_3_apply]
  generalize Cert.ReferenceIdeal.Read.val_main_v17 (F := Ideal) x2 (ix1 p) = e
  rfl

/-- The kernel's mean at (p, k) is the reference's. -/
theorem mean_eq (c : Dev nD) (p : Fin 100000) (k : Fin 64) :
    aggArr m c (ix2 p k) * recipArr m c (ix2 p (0 : Fin 1))
      = Cert.ReferenceIdeal.RefValue.mean (m ((c : Thread nD τ).loc main_arg0)) (m ((c : Thread nD τ).loc main_arg2)) p k := by
  unfold Cert.ReferenceIdeal.RefValue.mean
  refine (congrArg₂ (fun a b : EReal => a * b) (congrFun (HostSide.agg_eq m c) (ix2 p k)) (HostSide.recip_at m c p)).trans ?_
  rw [clamped_at (m ((c : Thread nD τ).loc main_arg2)) p]
  generalize Cert.ReferenceIdeal.Read.val_main_v17 (F := Ideal) (m ((c : Thread nD τ).loc main_arg2)) (ix1 p) = e
  generalize Cert.ReferenceIdeal.Read.val_main_v13 (F := Ideal) (m ((c : Thread nD τ).loc main_arg0)) (m ((c : Thread nD τ).loc main_arg2)) (ix2 p k) = a
  exact mul_recip_clamped a e _ one_f32

/-- The hidden result array is the reference's first result. -/
theorem hidden_eq (c : Dev nD) :
    Whole.hiddenArr m c
      = Cert.ReferenceIdeal.Read.val_main_v29 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨p, q, rfl⟩ : ∃ (p : Fin 100000) (q : Fin 64), i = ix2 p q := ⟨i 0, i 1, eq_ix2 i⟩
  refine Eq.trans ?_ (Cert.ReferenceIdeal.RefValue.hidden_at (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) p q).symm
  refine (hiddenOf_at (aggArr m c) (recipArr m c) (featArr m c) (wArr m c) (bmArr m c) (biasArr m c) p q).trans ?_
  refine hiddenAt_congr ?_ ?_ ?_ ?_ ?_ q
  · intro k; exact mean_eq m c p k
  · intro k; exact congrFun (V_main_arg1 m c) (ix2 p k)
  · intro k q; exact congrFun (V_main_arg3 m c) (ix2 k q)
  · intro k q; exact congrFun (V_main_arg4 m c) (ix2 k q)
  · intro q; exact HostSide.bias_at m c q

/-- The prediction array is the reference's second result. -/
theorem pred_eq (c : Dev nD) :
    Whole.predArr m c
      = Cert.ReferenceIdeal.Read.val_main_v33 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  funext i
  obtain ⟨p, r, rfl⟩ : ∃ (p : Fin 100000) (r : Fin 32), i = ix2 p r := ⟨i 0, i 1, eq_ix2 i⟩
  refine Eq.trans ?_ (Cert.ReferenceIdeal.RefValue.pred_at (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) p r).symm
  refine (predOf_at (Whole.hiddenArr m c) (headArr m c) (headBiasArr m c) p r).trans ?_
  refine predAt_congr ?_ ?_ ?_ r
  · intro k; exact congrFun (hidden_eq m c) (ix2 p k)
  · intro k r; exact congrFun (V_main_arg6 m c) (ix2 k r)
  · intro r; exact HostSide.headBias_at m c r

end Cert.Bridge

end
-- ==== Proof.lean ====
/-
  A fused graph layer over 100000 nodes against its plain reference: both programs gather the source rows of
  1.6 million edges and scatter-add them at the destinations (agg), count each node's incoming edges (deg) and clamp
  the count below at 1 (d); then
      hidden = max (mean · W + u · B + b) 0,      pred = hidden · Wp + bp,
  where the reference takes mean = agg / d on the host and the kernel multiplies agg by the reciprocal column 1 / d
  inside twenty blocks of 5000 rows, casting the operands of its three products to a narrower format first. Over the
  extended reals the casts are the identity, each product is the plain sum over the 64 channels, a block of rows of
  hidden and pred depends on the same rows of its row inputs only, and agg · (1 / d) is agg / d because d ≥ 1 is never
  zero (Proof/Spec.lean); so the two programs end with equal results, and no finiteness of the inputs is used. The
  idealized kernel is the kernel's own text read at the ideal values (no rewrite was applied), so there is nothing to
  preserve; the three frames are the kernel's launch certificate at both readings and the reference's straight-line run.
-/
import proofs.«136665_j73383811220028_1_alg».proof.Defs
import proofs.«136665_j73383811220028_1_alg».proof.Proof.Gen.Kernel
import proofs.«136665_j73383811220028_1_alg».proof.Proof.Gen.Kernel.Skeleton
import proofs.«136665_j73383811220028_1_alg».proof.Proof.Gen.Kernel.Launch
import proofs.«136665_j73383811220028_1_alg».proof.Proof.Gen.Kernel.Points
import proofs.«136665_j73383811220028_1_alg».proof.Proof.Gen.Kernel.Frame
import proofs.«136665_j73383811220028_1_alg».proof.Proof.Gen.KernelIdeal
import proofs.«136665_j73383811220028_1_alg».proof.Proof.Gen.KernelIdeal.Skeleton
import proofs.«136665_j73383811220028_1_alg».proof.Proof.Gen.KernelIdeal.Launch
import proofs.«136665_j73383811220028_1_alg».proof.Proof.Gen.KernelIdeal.Points
import proofs.«136665_j73383811220028_1_alg».proof.Proof.Gen.KernelIdeal.Frame
import proofs.«136665_j73383811220028_1_alg».proof.Proof.Gen.ReferenceIdeal
import proofs.«136665_j73383811220028_1_alg».proof.Proof.Gen.Pre_finite_inputs
import proofs.«136665_j73383811220028_1_alg».proof.Proof.Gen.KernelIdeal.Value
import proofs.«136665_j73383811220028_1_alg».proof.Proof.Gen.ReferenceIdeal.Run
import proofs.«136665_j73383811220028_1_alg».proof.Proof.Gen.ReferenceIdeal.Read
import proofs.«136665_j73383811220028_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is a straight line of host operations: its run, with the two results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the eight arguments both programs end with the hidden array and the prediction
    array of the layer's two formulas. -/
theorem algebraic : Cert.algebraic_KernelIdeal_ReferenceIdeal := by
  intro m ρ m' ρ' _ hagree
  refine ⟨fun c => Cert.KernelIdeal.Whole.hiddenArr m c, fun c => Cert.KernelIdeal.Whole.predArr m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v29_eq _ _ _ _ _ _).trans ?_
    rw [(hagree c).1, (hagree c).2.1, (hagree c).2.2.1, (hagree c).2.2.2.1, (hagree c).2.2.2.2.1, (hagree c).2.2.2.2.2.1]
    exact (Cert.Bridge.hidden_eq m c).symm
  · refine (Cert.ReferenceIdeal.Read.val_main_v33_eq _ _ _ _ _ _ _ _).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.Bridge.pred_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
